-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x384 : Shape := ⟨2, ![131072, 384]⟩
abbrev S384 : Shape := ⟨1, ![384]⟩
abbrev S_ : Shape := ⟨0, ![]⟩

class Facts : Prop where
  bcast_S_S131072x384 : S_.BroadcastsInDim S131072x384 (![] : Fin 0 → Fin S131072x384.rank)
  reducesTo_S131072x384_S_d0_1 : S131072x384.ReducesTo [0, 1] S_
  h_S_ : 0 < S_.numel
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  main_v18

def fn {F : FTy → Type} [FloatOps F] (main_arg0 : FVec F S131072x384 .f32) (main_arg1 : FVec F S131072x384 .f32) (main_arg2 : FVec F S131072x384 .f32) (main_arg3 : FVec F S384 .f32) : IVec S_ 1 :=
  let main_v0 : FVec F S131072x384 .f32 := Host.absf main_arg0
  let main_cst : FVec F S_ .f32 := constant S_ .f32 0x7F800000#32
  let main_v1 : FVec F S131072x384 .f32 := broadcastInDim S131072x384 ![] bcast_S_S131072x384 main_cst
  let main_v2 : IVec S131072x384 1 := cmpf .olt main_v0 main_v1
  let main_c : IVec S_ 1 := constantI S_ 1 1#1
  let main_v3 : IVec S_ 1 := (fun x v => Host.reduce IntOp.andi x v reducesTo_S131072x384_S_d0_1 h_S_) main_v2 main_c
  let main_v4 : FVec F S131072x384 .f32 := Host.absf main_arg1
  let main_cst_0 : FVec F S_ .f32 := constant S_ .f32 0x7F800000#32
  let main_v5 : FVec F S131072x384 .f32 := broadcastInDim S131072x384 ![] bcast_S_S131072x384 main_cst_0
  let main_v6 : IVec S131072x384 1 := cmpf .olt main_v4 main_v5
  let main_c_1 : IVec S_ 1 := constantI S_ 1 1#1
  let main_v7 : IVec S_ 1 := (fun x v => Host.reduce IntOp.andi x v reducesTo_S131072x384_S_d0_1 h_S_) main_v6 main_c_1
  let main_v8 : IVec S_ 1 := andi main_v3 main_v7
  let main_v9 : FVec F S131072x384 .f32 := Host.absf main_arg2
  let main_cst_2 : FVec F S_ .f32 := constant S_ .f32 0x7F800000#32
  let main_v10 : FVec F S131072x384 .f32 := broadcastInDim S131072x384 ![] bcast_S_S131072x384 main_cst_2
  let main_v11 : IVec S131072x384 1 := cmpf .olt main_v9 main_v10
  let main_c_3 : IVec S_ 1 := constantI S_ 1 1#1
  let main_v12 : IVec S_ 1 := (fun x v => Host.reduce IntOp.andi x v reducesTo_S131072x384_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_v13 main_v16
-- ==== Kernel.lean ====
abbrev S131072x384 : Shape := ⟨2, ![131072, 384]⟩
abbrev S384 : Shape := ⟨1, ![384]⟩
abbrev S1x1 : Shape := ⟨2, ![1, 1]⟩
abbrev S2048x384 : Shape := ⟨2, ![2048, 384]⟩
abbrev S1x384 : Shape := ⟨2, ![1, 384]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S131072x384, .f32⟩
  | .hbm, ⟨1, _⟩ => ⟨S131072x384, .f32⟩
  | .hbm, ⟨2, _⟩ => ⟨S131072x384, .f32⟩
  | .hbm, ⟨3, _⟩ => ⟨S384, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S384, .f32⟩
  | .local _ .vmem, ⟨7, _⟩ => ⟨S1x1, .f32⟩
  | _, _ => ⟨S131072x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S2048x384_S2048x384_0_0 : ∀ a, (![0, 0] : Fin 2 → Nat) a + S2048x384.size a ≤ S2048x384.size a
  h_S2048x384 : 0 < S2048x384.numel
  inb_S384_S384_0 : ∀ a, (![0] : Fin 1 → Nat) a + S384.size a ≤ S384.size a
  h_S384 : 0 < S384.numel
  shapeCasts_S384_S1x384 : S384.ShapeCasts S1x384
  broadcasts_S1x384_S2048x384 : S1x384.Broadcasts S2048x384
  reduces_S2048x384_S2048 : S2048x384.Reduces [1] S2048
  shapeCasts_S2048_S2048x1 : S2048.ShapeCasts S2048x1
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S131072x384.size a
  hwx0_0 : ∀ i : grid0.Coords, EltTy.bits .f32 = 32 ∨ (Rect.block (s := S131072x384) S2048x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S131072x384.size a
  hwx0_1 : ∀ i : grid0.Coords, EltTy.bits .f32 = 32 ∨ (Rect.block (s := S131072x384) S2048x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x384.size a ≤ S131072x384.size a
  hwx0_2 : ∀ i : grid0.Coords, EltTy.bits .f32 = 32 ∨ (Rect.block (s := S131072x384) S2048x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x384 : Shape := ⟨2, ![131072, 384]⟩
abbrev S384 : Shape := ⟨1, ![384]⟩
abbrev S1x384 : Shape := ⟨2, ![1, 384]⟩
abbrev S_ : Shape := ⟨0, ![]⟩
abbrev S131072 : Shape := ⟨1, ![131072]⟩

abbrev nBuf : Space → Nat
  | .hbm => 30
  | .vmem => 0
  | .smem => 0
  | _ => 0

abbrev bufTy : (tb : Table) → Fin (tcTables nBuf tb) → BufTy
  | .hbm, ⟨0, _⟩ => ⟨S131072x384, .f32⟩
  | .hbm, ⟨1, _⟩ => ⟨S131072x384, .f32⟩
  | .hbm, ⟨2, _⟩ => ⟨S131072x384, .f32⟩
  | .hbm, ⟨3, _⟩ => ⟨S384, .f32⟩
  | .hbm, ⟨4, _⟩ => ⟨S384, .f32⟩
  | .hbm, ⟨5, _⟩ => ⟨S131072x384, .f32⟩
  | .hbm, ⟨6, _⟩ => ⟨S131072x384, .f32⟩
  | .hbm, ⟨7, _⟩ => ⟨S1x384, .f32⟩
  | .hbm, ⟨8, _⟩ => ⟨S131072x384, .f32⟩
  | .hbm, ⟨9, _⟩ => ⟨S131072x384, .f32⟩
  | .hbm, ⟨10, _⟩ => ⟨S131072x384, .f32⟩
  | .hbm, ⟨11, _⟩ => ⟨S_, .f32⟩
  | .hbm, ⟨12, _⟩ => ⟨S131072, .f32⟩
  | .hbm, ⟨13, _⟩ => ⟨S1x384, .f32⟩
  | .hbm, ⟨14, _⟩ => ⟨S131072x384, .f32⟩
  | .hbm, ⟨15, _⟩ => ⟨S131072x384, .f32⟩
  | .hbm, ⟨16, _⟩ => ⟨S131072x384, .f32⟩
  | .hbm, ⟨17, _⟩ => ⟨S_, .f32⟩
  | .hbm, ⟨18, _⟩ => ⟨S131072, .f32⟩
  | .hbm, ⟨19, _⟩ => ⟨S131072, .f32⟩
  | .hbm, ⟨20, _⟩ => ⟨S_, .f32⟩
  | .hbm, ⟨21, _⟩ => ⟨S131072, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S131072x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  reducesTo_S131072x384_S131072_d1 : S131072x384.ReducesTo [1] S131072
  h_S_ : 0 < S_.numel
  bcast_S_S131072 : S_.BroadcastsInDim S131072 (![] : Fin 0 → Fin S131072.rank)
  reducesTo_S131072_S_d0 : S131072.ReducesTo [0] S_

variable [Facts₀]

class Facts : Prop extends Facts₀ where

variable [Facts]
-- ==== Proof.MarginLoss.lean ====
/-
  The quantity both programs compute, stated once over the extended reals, and the one law that joins their two
  arrangements of it.

  For anchors `a`, positives `p`, negatives `n` (each 131072 rows of 384 features) and log-weights `w` (384 features):
  the squared distance between row `r` of two arrays under the diagonal metric `diag (exp w)` is
  `∑ f, exp (w f) · (x r f − y r f) · (x r f − y r f)`; a row's loss is the hinge
  `max (dist a p r − dist a n r + margin) 0`; the result is the sum of the rows' losses divided by the number of rows.
  The margin and the divisor stay the float words the programs print (both programs print the same words, so they are
  never evaluated).

  The reference sums the 131072 rows in one sweep. The kernel sums them 2048 at a time and adds the 64 block sums
  into a running total. Addition of extended reals is commutative and associative with no side condition, so the two are
  equal for every input, the infinite ones included: `sum_rows_by_blocks`.
-/
import Idealize.ShloMosaic.PureOps.Ideal
import Idealize.ShloMosaic.PureOps.Ideal.Laws
import Idealize.ShloMosaic.Lib.ValueIdx
import Mathlib.Logic.Equiv.Fin.Basic

noncomputable section

open scoped BigOperators

namespace Cert.MarginLoss

open Idealize.ShloMosaic Idealize.ShloMosaic.ValueIdx

/-- An array of `R` rows of 384 features, as extended reals: the whole arrays have 131072 rows, a block of them 2048. -/
abbrev Rows (R : ℕ) := (⟨2, ![R, 384]⟩ : Shape).Idx → EReal
/-- One value per feature. -/
abbrev Feat := (⟨1, ![384]⟩ : Shape).Idx → EReal

/-- The squared distance between row `r` of `x` and row `r` of `y` under the diagonal metric `diag (exp w)`. -/
def wdist {R : ℕ} (w : Feat) (x y : Rows R) (r : Fin R) : EReal :=
  ∑ f : Fin 384, Ideal.exp (w (ix1 f)) * (x (ix2 r f) - y (ix2 r f)) * (x (ix2 r f) - y (ix2 r f))

/-- Row `r`'s hinge loss: how far the positive is from being closer than the negative by the margin `f32 0.2`. -/
def rowLoss {R : ℕ} (w : Feat) (a p n : Rows R) (r : Fin R) : EReal :=
  max (wdist w a p r - wdist w a n r + Ideal.ofBits .f32 0x3E4CCCCD#32) 0

/-- The mean of the rows' losses: their sum over `f32 131072`. -/
def meanLoss (w : Feat) (a p n : Rows 131072) : EReal :=
  Ideal.div (∑ r : Fin 131072, rowLoss w a p n r) (Ideal.ofBits .f32 0x48000000#32)

/-- A row's loss reads only that row: if row `q` of the blocks `a'`, `p'`, `n'` is row `r` of the arrays `a`, `p`, `n`, the
    block's loss at `q` is the arrays' at `r`. -/
theorem rowLoss_of_rows {R R' : ℕ} (w : Feat) (a p n : Rows R) (a' p' n' : Rows R') (r : Fin R) (q : Fin R')
    (ha : ∀ f, a' (ix2 q f) = a (ix2 r f)) (hp : ∀ f, p' (ix2 q f) = p (ix2 r f)) (hn : ∀ f, n' (ix2 q f) = n (ix2 r f)) :
    rowLoss w a' p' n' q = rowLoss w a p n r := by
  unfold rowLoss wdist
  simp only [ha, hp, hn]

/-- A sum over `N = T · Q` rows is the sum over `T` blocks of the sum over each block's `Q` rows, whatever names the
    rows of block `t` have as long as row `q` of block `t` is row `t · Q + q`: in any commutative monoid, so for
    extended reals without a finiteness condition. -/
theorem sum_rows_by_blocks {M : Type*} [AddCommMonoid M] (T Q N : ℕ) (hN : T * Q = N) (row : Fin T → Fin Q → Fin N)
    (hrow : ∀ t q, (row t q).val = t.val * Q + q.val) (g : Fin N → M) :
    ∑ r, g r = ∑ t, ∑ q, g (row t q) := by
  subst hN
  rw [← Equiv.sum_comp finProdFinEquiv g, Fintype.sum_prod_type]
  refine Finset.sum_congr rfl fun t _ => Finset.sum_congr rfl fun q _ => congrArg g (Fin.ext ?_)
  rw [finProdFinEquiv_apply_val, hrow, Nat.mul_comm, Nat.add_comm]

/-- A rank-1 index set is its one coordinate's range, so a sum over it is the sum over the coordinate. -/
theorem sum_idx1 {M : Type*} [AddCommMonoid M] {n : ℕ} (f : (⟨1, ![n]⟩ : Shape).Idx → M) :
    ∑ i, f i = ∑ a : Fin n, f (ix1 a) := by
  let e : Fin n ≃ (⟨1, ![n]⟩ : Shape).Idx :=
    { toFun := fun a => ix1 a, invFun := fun i => i 0, left_inv := fun _ => rfl, right_inv := fun i => (eq_ix1 i).symm }
  exact (Equiv.sum_comp e f).symm

/-- A running total that starts at `0 + P 0` and adds `P (k + 1)` at step `k + 1` holds, after step `k`, the sum of
    `P 0 … P k`. -/
theorem running_total {M : Type*} [AddCommMonoid M] (P acc : ℕ → M) (h0 : acc 0 = 0 + P 0)
    (hs : ∀ k, acc (k + 1) = acc k + P (k + 1)) : ∀ k, acc k = ∑ t ∈ Finset.range (k + 1), P t
  | 0 => by rw [h0, zero_add, Finset.sum_range_one]
  | k + 1 => by rw [hs, running_total P acc h0 hs k, Finset.sum_range_succ _ (k + 1)]

end Cert.MarginLoss

end
-- ==== Proof.RefMean.lean ====
/-
  The reference computes the mean loss: its result term, read one operation at a time, is `meanLoss` of its four
  argument arrays.

  Each row's lane reduction is the host's zero plus the sum over the 384 features of `exp w · d · d` with the
  weights broadcast along the rows, which is the weighted squared distance `wdist`; the subtraction, the added margin
  and the maximum with the broadcast zero make the row's hinge `rowLoss`; the total reduction is zero plus the sum
  over all 131072 rows; the quotient by `f32 131072` is the mean.
-/
import proofs.«120586_j78091095376057_1_alg».proof.Proof.Gen.ReferenceIdeal.Read
import proofs.«120586_j78091095376057_1_alg».proof.Proof.MarginLoss

noncomputable section

open scoped BigOperators

namespace Cert.ReferenceIdeal.Mean

open Idealize.ShloMosaic Idealize.ShloMosaic.ValueIdx Cert.ReferenceIdeal Cert.ReferenceIdeal.Read Cert.MarginLoss

/-- Feature `f` of row `r`, as the row reduction names it. -/
theorem rowFeat_eq (r : Fin 131072) (f : Fin 384) : idx_main_v7 (ix1 r) f = ix2 r f :=
  funext fun a => Fin.ext (by match a with | ⟨0, _⟩ => rfl | ⟨1, _⟩ => rfl)
theorem rowFeat_eq' (r : Fin 131072) (f : Fin 384) : idx_main_v12 (ix1 r) f = ix2 r f :=
  funext fun a => Fin.ext (by match a with | ⟨0, _⟩ => rfl | ⟨1, _⟩ => rfl)
/-- The weights broadcast along the rows are read, at `(r, f)`, at feature `f`. -/
theorem weight_eq (r : Fin 131072) (f : Fin 384) : idx_main_v3 (idx_main_v4 (ix2 r f)) = ix1 f :=
  funext fun a => Fin.ext (by match a with | ⟨0, _⟩ => rfl)
theorem weight_eq' (r : Fin 131072) (f : Fin 384) : idx_main_v8 (idx_main_v9 (ix2 r f)) = ix1 f :=
  funext fun a => Fin.ext (by match a with | ⟨0, _⟩ => rfl)

/-- The first row reduction is the distance to the positive, -/
theorem distPos_apply (x0 x1 : (⟨S131072x384, .f32⟩ : BufTy).Contents (Elt Ideal)) (x3 : (⟨S384, .f32⟩ : BufTy).Contents (Elt Ideal))
    (r : Fin 131072) : val_main_v7 (F := Ideal) x0 x1 x3 (ix1 r) = wdist x3 x0 x1 r := by
  rw [val_main_v7_apply]
  refine (congrArg (· + _) Ideal.ofBits_zero_f32).trans ((zero_add _).trans (Finset.sum_congr rfl fun f _ => ?_))
  rw [val_main_v6_apply, val_main_v5_apply, val_main_v4_apply, val_main_v3_apply, val_main_v0_apply, val_main_v1_apply,
    rowFeat_eq, weight_eq]
  rfl

/-- and the second the distance to the negative. -/
theorem distNeg_apply (x0 x2 : (⟨S131072x384, .f32⟩ : BufTy).Contents (Elt Ideal)) (x3 : (⟨S384, .f32⟩ : BufTy).Contents (Elt Ideal))
    (r : Fin 131072) : val_main_v12 (F := Ideal) x0 x2 x3 (ix1 r) = wdist x3 x0 x2 r := by
  rw [val_main_v12_apply]
  refine (congrArg (· + _) Ideal.ofBits_zero_f32).trans ((zero_add _).trans (Finset.sum_congr rfl fun f _ => ?_))
  rw [val_main_v11_apply, val_main_v10_apply, val_main_v9_apply, val_main_v8_apply, val_main_v0_apply, val_main_v2_apply,
    rowFeat_eq', weight_eq']
  rfl

/-- The rectified margin at row `r` is the row's hinge loss. -/
theorem hinge_apply (x0 x1 x2 : (⟨S131072x384, .f32⟩ : BufTy).Contents (Elt Ideal)) (x3 : (⟨S384, .f32⟩ : BufTy).Contents (Elt Ideal))
    (r : Fin 131072) : val_main_v16 (F := Ideal) x0 x1 x2 x3 (ix1 r) = rowLoss x3 x0 x1 x2 r := by
  rw [val_main_v16_apply, val_main_v15_apply, val_main_v13_apply, val_main_v14_apply, val_main_call0_v0_apply,
    distPos_apply, distNeg_apply]
  exact congrArg (max _) Ideal.ofBits_zero_f32

/-- THE REFERENCE'S RESULT is the mean loss. -/
theorem result_eq (x0 x1 x2 : (⟨S131072x384, .f32⟩ : BufTy).Contents (Elt Ideal)) (x3 : (⟨S384, .f32⟩ : BufTy).Contents (Elt Ideal)) :
    val_main_v18 (F := Ideal) x0 x1 x2 x3 = fun _ => meanLoss x3 x0 x1 x2 := by
  funext i
  rw [val_main_v18_apply, val_main_v17_apply, sum_idx1, val_main_cst_2_apply, val_main_cst_3_apply]
  simp only [hinge_apply, Ideal.hostDivf_def, Ideal.ofBits_def, Ideal.ofBits_zero_f32, zero_add]
  unfold meanLoss
  rfl

end Cert.ReferenceIdeal.Mean

end
-- ==== Proof.CaseValues.lean ====
/-
  What one grid point leaves in the kernel's one-element output block, for either way the body can run, at any float
  instance.

  At the first point the body stores the reset value, reads it back and stores the update computed over it: two
  stores to the same single element, of which the later one is what remains, computed over the value the earlier one
  left. At every later point it stores one update, computed over the running contents it finds. In both cases what
  remains is the body's update term `k0_pay2` of the point's three row blocks, the weights and the contents it
  accumulates onto: the reset value at the first point, the previous contents afterwards.
-/
import proofs.«120586_j78091095376057_1_alg».proof.Proof.Gen.KernelIdeal.Frame
import Idealize.ShloMosaic.Lib.Pipeline.Value
import Idealize.ShloMosaic.Lib.Tactic

noncomputable section

namespace Cert.KernelIdeal.CaseValues

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A LATER POINT: the block ends at the update over the contents `xo4` it started with. -/
theorem later_point (c : Dev nD) (i : grid0.Coords) (arg1 : Memref sig .tc .vmem S2048x384 .f32) (harg1 : arg1.IsWhole) (arg2 : Memref sig .tc .vmem S2048x384 .f32) (harg2 : arg2.IsWhole) (arg3 : Memref sig .tc .vmem S2048x384 .f32) (harg3 : arg3.IsWhole) (arg4 : Memref sig .tc .vmem S384 .f32) (harg4 : arg4.IsWhole) (arg5 : Memref sig .tc .vmem S1x1 .f32) (harg5 : arg5.IsWhole) (hc0 : ¬cond0_0 i)
    (x0 x1 x2 : Vec F S2048x384 .f32) (x3 : Vec F S384 .f32) (xo4 : Vec F S1x1 .f32) :
    out0_B_4 c i arg1 harg1 arg2 harg2 arg3 harg3 arg4 harg4 arg5 harg5 hc0 x0 x1 x2 x3 xo4 = k0_pay2 x0 x1 x2 x3 xo4 := by
  unfold out0_B_4
  rw [View.read_writes_eq_canon _ _ _ (cover0_B_4 c i arg1 harg1 arg2 harg2 arg3 harg3 arg4 harg4 arg5 harg5 hc0 x0 x1 x2 x3 xo4)]
  unfold kernelRun0_B
  dsimp only
  sl_unfold_words
  rw [View.canon_unit_zero hz]
  simp only [View.readAt_eq_ld, harg1.read_unread, harg2.read_unread, harg3.read_unread, harg4.read_unread, harg5.read_unread,
    View.ld_unit_zero (S := S2048x384) hz, View.ld_unit_zero (S := S384) hz1, View.ld_unit_zero (S := S1x1) hz]

/-- THE FIRST POINT: the block ends at the update over the reset value, whatever it held before. -/
theorem first_point (c : Dev nD) (i : grid0.Coords) (arg1 : Memref sig .tc .vmem S2048x384 .f32) (harg1 : arg1.IsWhole) (arg2 : Memref sig .tc .vmem S2048x384 .f32) (harg2 : arg2.IsWhole) (arg3 : Memref sig .tc .vmem S2048x384 .f32) (harg3 : arg3.IsWhole) (arg4 : Memref sig .tc .vmem S384 .f32) (harg4 : arg4.IsWhole) (arg5 : Memref sig .tc .vmem S1x1 .f32) (harg5 : arg5.IsWhole) (hc0 : cond0_0 i)
    (x0 x1 x2 : Vec F S2048x384 .f32) (x3 : Vec F S384 .f32) :
    out0_A_4 c i arg1 harg1 arg2 harg2 arg3 harg3 arg4 harg4 arg5 harg5 hc0 x0 x1 x2 x3 = k0_pay2 x0 x1 x2 x3 (k0_pay1 (F := F)) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread,
    View.ld_unit_zero (S := S2048x384) hz, View.ld_unit_zero (S := S384) hz1, View.ld_unit_zero (S := S1x1) hz]

end Cert.KernelIdeal.CaseValues

end
-- ==== Proof.BlockLoss.lean ====
/-
  What the kernel body stores, read at the ideal instance: over a block of 2048 rows (anchors `x0`, positives `x1`,
  negatives `x2`), the log-weights `x3` and the running total `xo` it finds in its one-element output block, the
  stored value is `xo + ∑ q, rowLoss x3 x0 x1 x2 q`: the old total plus the sum of the block's 2048 hinge losses.

  The body reaches each row's loss through layout steps that move no value: the weights `exp x3` viewed as one row
  and repeated down the 2048 rows; each row's lane sum (a sum over the 384 features) stood up as a column; the column's
  sum over its 2048 entries viewed as a 1×1 block. Each is read at an index below, then the payload.
-/
import proofs.«120586_j78091095376057_1_alg».proof.Proof.Gen.KernelIdeal.Skeleton
import proofs.«120586_j78091095376057_1_alg».proof.Proof.MarginLoss
import Idealize.ShloMosaic.Lib.Pipeline.Value
import Idealize.ShloMosaic.Lib.ValueLayout
import Idealize.ShloMosaic.PureOps.Ideal.Laws

noncomputable section

open scoped BigOperators

namespace Cert.KernelIdeal.BlockLoss

open Idealize.ShloMosaic Idealize.ShloMosaic.ValueIdx Cert.KernelIdeal Cert.KernelIdeal.Gen Cert.MarginLoss

/-- A row's lane sum: the sum over the 384 features of row `q`. -/
theorem laneSum_apply (v : FVec Ideal S2048x384 .f32) (h : S2048x384.Reduces [1] S2048) (q : Fin 2048) :
    multiReduction .add [1] S2048 v 0x00000000#32 h (.inl rfl) rfl (ix1 q) = ∑ f : Fin 384, v (ix2 q f) := by
  refine (Ideal.multiReduction_add_single v 0x00000000#32 h (.inl rfl) rfl (ix1 q)).trans ?_
  refine Finset.sum_congr rfl fun f _ => congrArg v (funext fun a => Fin.ext ?_)
  match a with
  | ⟨0, _⟩ => rfl
  | ⟨1, _⟩ => rfl

/-- 2048 values stood up as a column read, at row `q`, the `q`-th value. -/
theorem column_apply (v : FVec Ideal S2048 .f32) (h : S2048.ShapeCasts S2048x1) (q : Fin 2048) (u : Fin 1) :
    shapeCast S2048x1 v h (ix2 q u) = v (ix1 q) :=
  shapeCast_apply v h _ _ (by
    have hu : u.val = 0 := by omega
    rw [Shape.rowMajor_val_two, Shape.rowMajor_val_one]
    show q.val = q.val * 1 + u.val
    omega)

/-- The sum down a column of 2048 entries. -/
theorem columnSum_apply (v : FVec Ideal S2048x1 .f32) (h : S2048x1.Reduces [0] S1) (u : Fin 1) :
    multiReduction .add [0] S1 v 0x00000000#32 h (.inl rfl) rfl (ix1 u) = ∑ q : Fin 2048, v (ix2 q (0 : Fin 1)) := by
  refine (Ideal.multiReduction_add_single v 0x00000000#32 h (.inl rfl) rfl (ix1 u)).trans ?_
  refine Finset.sum_congr rfl fun q _ => congrArg v (funext fun a => Fin.ext ?_)
  match a with
  | ⟨0, _⟩ => rfl
  | ⟨1, _⟩ =>
    have hu : u.val = 0 := by omega
    show u.val = 0
    exact hu

/-- The 384 weights viewed as one row and repeated down 2048 rows read, at `(q, f)`, weight `f`. -/
theorem weightRows_apply (w : FVec Ideal S384 .f32) (h1 : S384.ShapeCasts S1x384) (h2 : S1x384.Broadcasts S2048x384)
    (q : Fin 2048) (f : Fin 384) : broadcastTo S2048x384 (shapeCast S1x384 w h1) h2 (ix2 q f) = w (ix1 f) := by
  rw [broadcastTo_1b_ab_apply, shapeCast_a_1a_apply]

/-- The body's distance column: the weights repeated down the rows, times the difference twice, summed along each row
    and stood up as a column, is at row `q` the weighted squared distance between row `q` of `x` and of `y`. -/
theorem distColumn_apply (w : FVec Ideal S384 .f32) (x y : FVec Ideal S2048x384 .f32) (h1 : S384.ShapeCasts S1x384)
    (h2 : S1x384.Broadcasts S2048x384) (h3 : S2048x384.Reduces [1] S2048) (h4 : S2048.ShapeCasts S2048x1)
    (q : Fin 2048) (u : Fin 1) :
    shapeCast S2048x1 (multiReduction .add [1] S2048
        (mulf (mulf (broadcastTo S2048x384 (shapeCast S1x384 (exp w) h1) h2) (subf x y)) (subf x y))
        0x00000000#32 h3 (.inl rfl) rfl) h4 (ix2 q u) = wdist w x y q := by
  refine (column_apply _ _ q u).trans ((laneSum_apply _ _ q).trans (Finset.sum_congr rfl fun f _ => ?_))
  show (broadcastTo S2048x384 (shapeCast S1x384 (exp w) h1) h2 (ix2 q f)) * (x (ix2 q f) - y (ix2 q f))
      * (x (ix2 q f) - y (ix2 q f)) = _
  rw [weightRows_apply]
  rfl

/-- THE STORED VALUE: the running total the body found plus the block's 2048 hinge losses. -/
theorem stored_apply (x0 x1 x2 : Vec Ideal S2048x384 .f32) (x3 : Vec Ideal S384 .f32) (xo : Vec Ideal S1x1 .f32)
    (u v : Fin 1) :
    k0_pay2 (F := Ideal) x0 x1 x2 x3 xo (ix2 u v) = xo (ix2 u v) + ∑ q : Fin 2048, rowLoss x3 x0 x1 x2 q := by
  unfold k0_pay2
  dsimp only
  refine congrArg₂ (· + ·) (congrFun (shapeCast_self xo _) _) ?_
  refine (shapeCast_a_1a_apply _ _ u v).trans ((columnSum_apply _ _ v).trans (Finset.sum_congr rfl fun q _ => ?_))
  exact congrArg₂ max (congrArg₂ (· + ·) (congrArg₂ (· - ·) (distColumn_apply x3 x0 x1 _ _ _ _ q 0)
    (distColumn_apply x3 x0 x2 _ _ _ _ q 0)) rfl) Ideal.ofBits_zero_f32

/-- The reset the first point stores before it accumulates: zero. -/
theorem reset_apply (i : S1x1.Idx) : k0_pay1 (F := Ideal) i = 0 := Ideal.ofBits_zero_f32

end Cert.KernelIdeal.BlockLoss

end
-- ==== Proof.RunningTotal.lean ====
/-
  The kernel's result: what its one-element output array holds after the 64 grid points, and what @main makes of it.

  Point `t` reads rows `2048 t … 2048 t + 2047` of the three row arrays and all 384 weights. By the case values and
  the stored value, the output block after the first point holds `0 + B 0` and after each later point what it held
  plus `B t`, where `B t` is the sum of the hinge losses of block `t`'s rows, read off the whole arrays. So after
  point `n` it holds `B 0 + … + B n` (induction on the point), the one write-back after the last point puts the sum
  of all 64 block sums into the 1×1 result array, and the regrouping law makes that the sum over all 131072 rows.
  The lines after the region view the 1×1 array as a scalar and divide by `f32 131072`: the mean loss.
-/
import proofs.«120586_j78091095376057_1_alg».proof.Proof.CaseValues
import proofs.«120586_j78091095376057_1_alg».proof.Proof.BlockLoss
import proofs.«120586_j78091095376057_1_alg».proof.Proof.MarginLoss
import Idealize.ShloMosaic.Lib.Pipeline.Value
import Idealize.ShloMosaic.Lib.StableHlo.Run
import Idealize.ShloMosaic.Lib.Tactic

noncomputable section

open scoped BigOperators

namespace Cert.KernelIdeal.Total

open Idealize.ShloMosaic Idealize.ShloMosaic.TcCoe Idealize.SL.Sem Idealize.ShloMosaic.ValueIdx
open Idealize.ShloMosaic.Pipeline (Dat)
open Cert.KernelIdeal Cert.KernelIdeal.Gen Cert.MarginLoss

variable (m : (ℓ : Loc nD τ sig) → Buf (Elt Ideal) ℓ) (ρ : Dev nD → PrngReg)

/-! ## The arrays, and a point's blocks as rows of them -/

/-- The argument arrays as the region finds them. -/
abbrev anchors (c : Dev nD) : Rows 131072 := V m c main_arg0
abbrev positives (c : Dev nD) : Rows 131072 := V m c main_arg1
abbrev negatives (c : Dev nD) : Rows 131072 := V m c main_arg2
abbrev weights (c : Dev nD) : Feat := V m c main_arg3

/-- The blocks point `t` reads, at their literal types. -/
abbrev anchorBlk (c : Dev nD) (t : Fin cfg0.N) : Rows 2048 := iblk m c 0 t
abbrev positiveBlk (c : Dev nD) (t : Fin cfg0.N) : Rows 2048 := iblk m c 1 t
abbrev negativeBlk (c : Dev nD) (t : Fin cfg0.N) : Rows 2048 := iblk m c 2 t
abbrev weightBlk (c : Dev nD) (t : Fin cfg0.N) : Feat := iblk m c 3 t

/-- Row `q` of block `t` is row `2048 t + q` of the arrays. -/
def rowOf (t : Fin cfg0.N) (q : Fin 2048) : Fin 131072 :=
  ⟨t.val * 2048 + q.val, by have := t.isLt; have hN : cfg0.N = 64 := N_0; have := q.isLt; omega⟩

/-- The row windows' block index at point `t` is `(t, 0)`; the weights' is `0`. -/
theorem rowsIdx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem rowsIdx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem rowsIdx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem featIdx : ∀ t : Fin cfg0.N, win0_3.index t (0 : Fin 1) = 0 :=
  (by decide +kernel : ∀ t : Fin grid0.N, win0_3.index t (0 : Fin 1) = 0)

theorem anchorBlk_apply (c : Dev nD) (t : Fin cfg0.N) (q : Fin 2048) (f : Fin 384) :
    anchorBlk m c t (ix2 q f) = anchors m c (ix2 (rowOf t q) f) := by
  show iblk m c 0 t (ix2 q f) = V m c main_arg0 (ix2 (rowOf t q) f)
  unfold iblk
  rw [View.read_apply]
  show V m c main_arg0 _ = V m c main_arg0 _
  refine congrArg (V m c main_arg0) (funext fun a => Fin.ext ?_)
  match a with
  | ⟨0, _⟩ => show win0_0.index t 0 * 2048 + 1 * q.val = t.val * 2048 + q.val; rw [(rowsIdx0 t).1]; omega
  | ⟨1, _⟩ => show win0_0.index t 1 * 384 + 1 * f.val = f.val; rw [(rowsIdx0 t).2]; omega

theorem positiveBlk_apply (c : Dev nD) (t : Fin cfg0.N) (q : Fin 2048) (f : Fin 384) :
    positiveBlk m c t (ix2 q f) = positives m c (ix2 (rowOf t q) f) := by
  show iblk m c 1 t (ix2 q f) = V m c main_arg1 (ix2 (rowOf t q) f)
  unfold iblk
  rw [View.read_apply]
  show V m c main_arg1 _ = V m c main_arg1 _
  refine congrArg (V m c main_arg1) (funext fun a => Fin.ext ?_)
  match a with
  | ⟨0, _⟩ => show win0_1.index t 0 * 2048 + 1 * q.val = t.val * 2048 + q.val; rw [(rowsIdx1 t).1]; omega
  | ⟨1, _⟩ => show win0_1.index t 1 * 384 + 1 * f.val = f.val; rw [(rowsIdx1 t).2]; omega

theorem negativeBlk_apply (c : Dev nD) (t : Fin cfg0.N) (q : Fin 2048) (f : Fin 384) :
    negativeBlk m c t (ix2 q f) = negatives m c (ix2 (rowOf t q) f) := by
  show iblk m c 2 t (ix2 q f) = V m c main_arg2 (ix2 (rowOf t q) f)
  unfold iblk
  rw [View.read_apply]
  show V m c main_arg2 _ = V m c main_arg2 _
  refine congrArg (V m c main_arg2) (funext fun a => Fin.ext ?_)
  match a with
  | ⟨0, _⟩ => show win0_2.index t 0 * 2048 + 1 * q.val = t.val * 2048 + q.val; rw [(rowsIdx2 t).1]; omega
  | ⟨1, _⟩ => show win0_2.index t 1 * 384 + 1 * f.val = f.val; rw [(rowsIdx2 t).2]; omega

/-- Every point reads all the weights. -/
theorem weightBlk_eq (c : Dev nD) (t : Fin cfg0.N) : weightBlk m c t = weights m c := by
  funext j
  obtain ⟨f, rfl⟩ : ∃ f : Fin 384, j = ix1 f := ⟨j 0, eq_ix1 j⟩
  show iblk m c 3 t (ix1 f) = V m c main_arg3 (ix1 f)
  unfold iblk
  rw [View.read_apply]
  show V m c main_arg3 _ = V m c main_arg3 _
  refine congrArg (V m c main_arg3) (funext fun a => Fin.ext ?_)
  match a with
  | ⟨0, _⟩ => show win0_3.index t 0 * 384 + 1 * f.val = f.val; rw [featIdx t]; omega

/-! ## One point's update, and the running total -/

/-- `B t`: the sum of the hinge losses of block `t`'s 2048 rows. -/
def blockTotal (c : Dev nD) (t : Fin cfg0.N) : EReal :=
  ∑ q : Fin 2048, rowLoss (weights m c) (anchors m c) (positives m c) (negatives m c) (rowOf t q)

/-- The update point `t` stores over contents `xo` is `xo + B t`. -/
theorem update_eq (c : Dev nD) (t : Fin cfg0.N) (xo : Vec Ideal S1x1 .f32) :
    k0_pay2 (F := Ideal) (iblk m c 0 t) (iblk m c 1 t) (iblk m c 2 t) (iblk m c 3 t) xo
      = fun _ => xo (ix2 (0 : Fin 1) (0 : Fin 1)) + blockTotal m c t := by
  funext j
  obtain ⟨u, v, rfl⟩ : ∃ (u v : Fin 1), j = ix2 u v := ⟨j 0, j 1, eq_ix2 j⟩
  obtain rfl : u = 0 := Subsingleton.elim _ _
  obtain rfl : v = 0 := Subsingleton.elim _ _
  refine (BlockLoss.stored_apply (anchorBlk m c t) (positiveBlk m c t) (negativeBlk m c t) (weightBlk m c t) xo 0 0).trans ?_
  refine congrArg (xo (ix2 (0 : Fin 1) (0 : Fin 1)) + ·) (Finset.sum_congr rfl fun q _ => ?_)
  refine (congrArg (fun w => rowLoss w (anchorBlk m c t) (positiveBlk m c t) (negativeBlk m c t) q) (weightBlk_eq m c t)).trans ?_
  exact rowLoss_of_rows (weights m c) (anchors m c) (positives m c) (negatives m c) (anchorBlk m c t) (positiveBlk m c t)
    (negativeBlk m c t) (rowOf t q) q (anchorBlk_apply m c t q) (positiveBlk_apply m c t q) (negativeBlk_apply m c t q)

/-- AFTER POINT `n` the output block holds `B 0 + … + B n`: by induction on the point. -/
theorem total_eq (c : Dev nD) : ∀ (n : ℕ) (h : n < cfg0.N),
    outsAt0 m c n h = fun _ => ∑ k : Fin (n + 1), blockTotal m c ⟨k.val, by have := k.isLt; omega⟩
  | 0, h => by
    refine (outsAt0_A m c ⟨0, h⟩ rfl).trans ?_
    refine (CaseValues.first_point c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (iblk m c 0 ⟨0, h⟩) (iblk m c 1 ⟨0, h⟩) (iblk m c 2 ⟨0, h⟩) (iblk m c 3 ⟨0, h⟩)).trans ?_
    refine (update_eq m c ⟨0, h⟩ (k0_pay1 (F := Ideal))).trans ?_
    funext _
    rw [BlockLoss.reset_apply, zero_add, Fin.sum_univ_one]
    rfl
  | n + 1, h => by
    have hN : cfg0.N = 64 := N_0
    have hB : ¬(⟨n + 1, h⟩ : Fin cfg0.N).val % 64 = 0 := by dsimp only; omega
    refine (outsAt0_B m c ⟨n + 1, h⟩ hB).trans ?_
    refine (CaseValues.later_point c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hc => hB ((hcond0_0 ⟨n + 1, h⟩).mp hc))
      (iblk m c 0 ⟨n + 1, h⟩) (iblk m c 1 ⟨n + 1, h⟩) (iblk m c 2 ⟨n + 1, h⟩) (iblk m c 3 ⟨n + 1, h⟩)
      (outsAt0 m c n (Nat.lt_of_succ_lt h))).trans ?_
    refine (update_eq m c ⟨n + 1, h⟩ (outsAt0 m c n (Nat.lt_of_succ_lt h))).trans ?_
    funext _
    rw [Fin.sum_univ_castSucc, total_eq c n (Nat.lt_of_succ_lt h)]
    rfl

/-! ## The result array -/

/-- The last point. -/
abbrev lastPt : Fin cfg0.N := ⟨63, by rw [show cfg0.N = 64 from N_0]; decide⟩

/-- The sum of the 64 block sums. -/
def blocksTotal (c : Dev nD) : EReal := ∑ k : Fin 64, blockTotal m c ⟨k.val, by have hN : cfg0.N = 64 := N_0; have := k.isLt; omega⟩

/-- … is the sum of the rows' losses over all 131072 rows: the regrouping law. -/
theorem blocksTotal_eq (c : Dev nD) :
    blocksTotal m c = ∑ r : Fin 131072, rowLoss (weights m c) (anchors m c) (positives m c) (negatives m c) r :=
  (sum_rows_by_blocks 64 2048 131072 rfl
    (fun k q => rowOf ⟨k.val, by have hN : cfg0.N = 64 := N_0; have := k.isLt; omega⟩ q) (fun _ _ => rfl)
    (rowLoss (weights m c) (anchors m c) (positives m c) (negatives m c))).symm

/-- The 1×1 result array at that sum. -/
abbrev result (c : Dev nD) : Buf (Elt Ideal) ((c : Thread nD τ).loc main_v0) := fun _ => blocksTotal m c

/-- The one write-back, after the last point, writes the running total there: the sum of all 64 block sums. -/
theorem flushed_eq (c : Dev nD) (t : Fin cfg0.N) (hf : (cfg0.win 4).flush t = true) :
    (dats m 0 c).flushed 4 t = ((cfg0.win 4).blk t).view.read (Elt Ideal) (result m c) := by
  have hN : cfg0.N = 64 := N_0
  have h63 : t.val = 63 := by have := (flush0_4 t).mp hf; have := t.isLt; omega
  obtain rfl : t = lastPt := Fin.ext h63
  show (cfg0.win 4).cut (grid0.coords lastPt) ((dats m 0 c).after 4 lastPt) = _
  rw [after0_4, total_eq]
  rfl

/-- Its one block is the whole 1×1 array, so the array ends at the total. -/
theorem final_eq (c : Dev nD) : (dats m 0 c).arrAt 4 cfg0.N = result m c :=
  (dats m 0 c).arrAt_eq_of_cover 4 (result m c) (flushed_eq m c) fun i =>
    ⟨lastPt, (flush0_4 lastPt).mpr rfl, by
      show i ∈ ((View.whole main_v0).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

/-! ## @main's result -/

/-- The lines after the region make the mean loss of it. -/
theorem tail_eq (c : Dev nD) :
    Pipeline.afterTail₀ cfgs (dats m) 0 (V0 m) [hostOps1] c main_v2
      = fun _ => meanLoss (weights m c) (anchors m c) (positives m c) (negatives m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.tc.devRef main_v0)
      = result m c := (Pipeline.withArrays_arr spec0 launch0.win.arr_inj c _ _ 4).trans (final_eq m c)
  rw [hA]
  funext i
  show Ideal.div (blocksTotal m c) (Ideal.ofBits .f32 0x48000000#32) = _
  rw [blocksTotal_eq]
  rfl

/-- The result buffer is none of the region's arrays: the region leaves it to the lines after it. -/
theorem result_mem : main_v2 ∈ Pipeline.restRefs sig (cfgs 0).spec :=
  Pipeline.mem_restRefs_of main_v2 rfl (by decide)

/-- THE KERNEL'S RUN, READ: every weakly fair execution ends with the result at the mean loss of the argument arrays,
    and the arguments as they were. -/
theorem run : θ_run defs (onTc (τ := τ) (main (F := Ideal))) ⟨m, fun _ => 0, ρ⟩ fun r => ∀ c : Dev nD,
      r.2.mem ((c.tc : Thread nD τ).loc main_v2)
        = (fun _ => meanLoss (weights m c) (anchors m c) (positives m c) (negatives m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v2 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Total

end
-- ==== Proof.lean ====
/-
  The claim: the Pallas kernel and the jnp reference compute the same triplet margin loss under a diagonal metric.

  Both take anchors, positives and negatives (131072 rows of 384 features) and log-weights `W`, and return the mean
  over the rows of `max (d(a, p) − d(a, n) + 0.2) 0`, where `d(x, y) = ∑ f, exp (W f) · (x f − y f)²` (written as
  `exp (W f) · (x f − y f) · (x f − y f)`, the same product in the same order on both sides). The reference sums the
  rows in one sweep; the kernel walks 64 blocks of 2048 rows, adds each block's sum of losses into a one-element
  accumulator it resets at the first block, and divides by 131072 after the kernel. Over the extended reals a sum
  may be grouped and ordered freely, so the two results are equal for every input (the precondition is not used).

  The parts: `MarginLoss` (the quantity, and the regrouping of a sum over rows by blocks), `RefMean` (the reference
  computes it), `BlockLoss` (what the body stores), `CaseValues` (what a point leaves, first or later),
  `RunningTotal` (the accumulator after each point, the result array, @main's result). The idealization rewrote
  nothing, so `preserves` is trivial; the frames of the two kernel programs are the generated ones, the reference's
  is its generated run with the result dropped.
-/
import proofs.«120586_j78091095376057_1_alg».proof.Defs
import proofs.«120586_j78091095376057_1_alg».proof.Proof.Gen.Kernel
import proofs.«120586_j78091095376057_1_alg».proof.Proof.Gen.Kernel.Frame
import proofs.«120586_j78091095376057_1_alg».proof.Proof.Gen.KernelIdeal
import proofs.«120586_j78091095376057_1_alg».proof.Proof.Gen.KernelIdeal.Frame
import proofs.«120586_j78091095376057_1_alg».proof.Proof.Gen.ReferenceIdeal
import proofs.«120586_j78091095376057_1_alg».proof.Proof.Gen.ReferenceIdeal.Run
import proofs.«120586_j78091095376057_1_alg».proof.Proof.Gen.ReferenceIdeal.Read
import proofs.«120586_j78091095376057_1_alg».proof.Proof.Gen.Pre_finite_inputs
import proofs.«120586_j78091095376057_1_alg».proof.Proof.MarginLoss
import proofs.«120586_j78091095376057_1_alg».proof.Proof.RefMean
import proofs.«120586_j78091095376057_1_alg».proof.Proof.RunningTotal
import Idealize.ShloMosaic.Adequacy
import Idealize.ShloMosaic.Init

noncomputable section

namespace Cert.Proof

open Idealize.ShloMosaic Idealize.ShloMosaic.TcCoe Idealize.SL.Sem Cert.MarginLoss

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with their result at `meanLoss` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => meanLoss (Cert.KernelIdeal.Total.weights m c) (Cert.KernelIdeal.Total.anchors m c)
    (Cert.KernelIdeal.Total.positives m c) (Cert.KernelIdeal.Total.negatives m c), Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Mean.result_eq, (hagree c).1, (hagree c).2.1, (hagree c).2.2.1,
    (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
